-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S768x128 : Shape := ⟨2, ![768, 128]⟩
abbrev S128 : Shape := ⟨1, ![128]⟩
abbrev S128x128 : Shape := ⟨2, ![128, 128]⟩
abbrev S128x768 : Shape := ⟨2, ![128, 768]⟩
abbrev S768 : Shape := ⟨1, ![768]⟩
abbrev S1600000 : Shape := ⟨1, ![1600000]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x768 : S_.BroadcastsInDim S128x768 (![] : Fin 0 → Fin S128x768.rank)
  reducesTo_S128x768_S_d0_1 : S128x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S128 .f32) (main_arg5 : FVec F S128x768 .f32) (main_arg6 : FVec F S768 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x768 .f32 := Host.absf main_arg5
  let main_cst_8 : FVec F S_ .f32 := constant S_ .f32 0x7F800000#32
  let main_v25 : FVec F S128x768 .f32 := broadcastInDim S128x768 ![] bcast_S_S128x768 main_cst_8
  let main_v26 : IVec S128x768 1 := cmpf .olt main_v24 main_v25
  let main_c_9 : IVec S_ 1 := constantI S_ 1 1#1
  let main_v27 : IVec S_ 1 := (fun x v => Host.reduce IntOp.andi x v reducesTo_S128x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S100000x768 .f32) (main_arg1 : FVec F S768x128 .f32) (main_arg2 : FVec F S128 .f32) (main_arg3 : FVec F S128x128 .f32) (main_arg4 : FVec F S128 .f32) (main_arg5 : FVec F S128x768 .f32) (main_arg6 : FVec F S768 .f32) (main_arg7 : IVec S1600000 32) (main_arg8 : IVec S1600000 32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S768x128 .f32 := Host.absf main_arg1
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x768 : Shape := ⟨2, ![100000, 768]⟩
abbrev S768x128 : Shape := ⟨2, ![768, 128]⟩
abbrev S128 : Shape := ⟨1, ![128]⟩
abbrev S128x128 : Shape := ⟨2, ![128, 128]⟩
abbrev S128x768 : Shape := ⟨2, ![128, 768]⟩
abbrev S768 : Shape := ⟨1, ![768]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x128 : Shape := ⟨2, ![100000, 128]⟩
abbrev S2000x768 : Shape := ⟨2, ![2000, 768]⟩
abbrev S2000x128 : Shape := ⟨2, ![2000, 128]⟩
abbrev S100000x1 : Shape := ⟨2, ![100000, 1]⟩
abbrev S1600000x128 : Shape := ⟨2, ![1600000, 128]⟩
abbrev S1x768 : Shape := ⟨2, ![1, 768]⟩

abbrev nBuf : Space → Nat
  | .hbm => 51
  | .vmem => 14
  | .smem => 0
  | _ => 0

abbrev bufTy : (tb : Table) → Fin (tcTables nBuf tb) → BufTy
  | .hbm, ⟨0, _⟩ => ⟨S100000x768, .f32⟩
  | .hbm, ⟨1, _⟩ => ⟨S768x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x768, .f32⟩
  | .hbm, ⟨6, _⟩ => ⟨S768, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S1x128, .f32⟩
  | .hbm, ⟨28, _⟩ => ⟨S100000x128, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S1x768, .f32⟩
  | .hbm, ⟨50, _⟩ => ⟨S100000x768, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S128x768, .f32⟩
  | .local _ .vmem, ⟨11, _⟩ => ⟨S1x768, .f32⟩
  | .local _ .vmem, ⟨12, _⟩ => ⟨S2000x768, .f32⟩
  | .local _ .vmem, ⟨13, _⟩ => ⟨S2000x768, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S768_S1x768 : S768.ShapeCasts S1x768
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x768_S128x768_0_0 : ∀ a, (![0, 0] : Fin 2 → Nat) a + S128x768.size a ≤ S128x768.size a
  h_S128x768 : 0 < S128x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  scatter_S100000_S1600000x1_S1600000_n_0_0_1_wf : ScatterDims.WF S100000 S1600000x1 S1600000 [] [0] [0] 1
  dot_S2000x768_S768x128_S2000x128_1_0_0_1_n_n_wf : DotDims.WF S2000x768 S768x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x768_S2000x768_1_0_0_1_n_n_wf : DotDims.WF S2000x128 S128x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x768.size a ≤ S128x768.size a
  hwx1_3 : ∀ i : grid1.Coords, EltTy.bits .f32 = 32 ∨ (Rect.block (s := S128x768) S128x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x768.size a ≤ S100000x768.size a
  hwx1_5 : ∀ i : grid1.Coords, EltTy.bits .f32 = 32 ∨ (Rect.block (s := S100000x768) S2000x768.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x768_S2000x768_1_0_0_1_n_n : DotDims S2000x128 S128x768 S2000x768 where
  lhsContracting := [1]
  rhsContracting := [0]
  lhsNonContracting := [0]
  rhsNonContracting := [1]
  lhsBatch := []
  rhsBatch := []
  wf := dot_S2000x128_S128x768_S2000x768_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x768 : Shape := ⟨2, ![100000, 768]⟩
abbrev S768x128 : Shape := ⟨2, ![768, 128]⟩
abbrev S128 : Shape := ⟨1, ![128]⟩
abbrev S128x128 : Shape := ⟨2, ![128, 128]⟩
abbrev S128x768 : Shape := ⟨2, ![128, 768]⟩
abbrev S768 : Shape := ⟨1, ![768]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x768 : Shape := ⟨2, ![1, 768]⟩

abbrev nBuf : Space → Nat
  | .hbm => 58
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S768x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x768, .f32⟩
  | .hbm, ⟨6, _⟩ => ⟨S768, .f32⟩
  | .hbm, ⟨7, _⟩ => ⟨S1600000, .i32⟩
  | .hbm, ⟨8, _⟩ => ⟨S1600000, .i32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x768, .f32⟩
  | .hbm, ⟨55, _⟩ => ⟨S1x768, .f32⟩
  | .hbm, ⟨56, _⟩ => ⟨S100000x768, .f32⟩
  | .hbm, ⟨57, _⟩ => ⟨S100000x768, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  dot_S100000x768_S768x128_S100000x128_1_0_0_1_n_n_wf : DotDims.WF S100000x768 S768x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x768_S100000x768_1_0_0_1_n_n_wf : DotDims.WF S100000x128 S128x768 S100000x768 [1] [0] [0] [1] [] []

variable [Facts₀]

def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x768_S100000x768_1_0_0_1_n_n : DotDims S100000x128 S128x768 S100000x768 where
  lhsContracting := [1]
  rhsContracting := [0]
  lhsNonContracting := [0]
  rhsNonContracting := [1]
  lhsBatch := []
  rhsBatch := []
  wf := dot_S100000x128_S128x768_S100000x768_1_0_0_1_n_n_wf

class Facts : Prop extends Facts₀ where

variable [Facts]
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.Dense.lean ====
/-
  A dense layer `x W + b` read entry by entry on the extended reals, and the two ways the programs spell it.

  Entry `(p, q)` of `x W + b` is `Σₜ x[p, t] · W[t, q] + b[q]`.  A matrix-unit product of the operands narrowed to
  half width, into an accumulator of zeros, plus a bias row broadcast down the rows, is that number: narrowing
  is the identity on the extended reals and the accumulator adds `0`.  So is the host's `dot_general` plus the
  bias vector broadcast first to one row and then down the rows.  Nothing here needs a finite operand: the two
  sides are the same sum of the same products in the same order.
-/
import Idealize.ShloMosaic.PureOps.Ideal.Laws
import Idealize.ShloMosaic.Lib.ValueIdx
import Idealize.ShloMosaic.Lib.Pipeline.Value
import proofs.«174329_j76330158785174_1_alg».proof.Proof.LibPlainDot
import proofs.«174329_j76330158785174_1_alg».proof.Proof.LibHostDot
import proofs.«174329_j76330158785174_1_alg».proof.Proof.LibMatrixReads

noncomputable section

open scoped BigOperators

namespace Cert.Layers

open Idealize.ShloMosaic Idealize.ShloMosaic.ValueIdx

/-- The dense layer `x W + b` over an `M × K` input, a `K × N` weight and a bias of length `N`. -/
def dense {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun i => (∑ t : Fin K, x (ix2 (i 0) t) * w (ix2 t (i 1))) + b (ix1 (i 1))

theorem dense_apply {M K N : Nat} (x : FVec Ideal ⟨2, ![M, K]⟩ .f32) (w : FVec Ideal ⟨2, ![K, N]⟩ .f32)
    (b : FVec Ideal ⟨1, ![N]⟩ .f32) (p : Fin M) (q : Fin N) :
    dense x w b (ix2 p q) = (∑ t : Fin K, x (ix2 p t) * w (ix2 t q)) + b (ix1 q) := rfl

/-- The matrix unit's form, with the bias held as one row `r`: entry `(p, q)` is `Σₜ x[p, t] · W[t, q] + r[0, q]`. -/
theorem mxu_dense_apply {M K N : Nat} (x : FVec Ideal ⟨2, ![M, K]⟩ .f32) (w : FVec Ideal ⟨2, ![K, N]⟩ .f32)
    (r : FVec Ideal ⟨2, ![1, N]⟩ .f32) (hx : FTy.bf16.bits < FTy.f32.bits) (hw : FTy.bf16.bits < FTy.f32.bits)
    (hsc : (⟨2, ![1, N]⟩ : Shape).ShapeCasts ⟨2, ![1, N]⟩) (hbc : (⟨2, ![1, N]⟩ : Shape).Broadcasts ⟨2, ![M, N]⟩)
    (p : Fin M) (q : Fin N) :
    addf (FloatOps.matmul (DotDims.plain M K N) none (truncf .bf16 x hx) (truncf .bf16 w hw)
        (constant ⟨2, ![M, N]⟩ .f32 0x00000000#32))
      (broadcastTo ⟨2, ![M, N]⟩ (shapeCast ⟨2, ![1, N]⟩ r hsc) hbc) (ix2 p q)
      = (∑ t : Fin K, x (ix2 p t) * w (ix2 t q)) + r (ix2 (0 : Fin 1) q) := by
  rw [addf_apply, PlainDot.matmul_zero_apply, MatrixReads.rowBroadcast_apply, shapeCast_self]
  rfl

/-- The host's form, with the bias a vector broadcast to one row and then down the rows, is the dense layer. -/
theorem host_dense_eq {M K N : Nat}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (⟨[1], [0], [0], [1], [], [], wf⟩ : DotDims ⟨2, ![M, K]⟩ ⟨2, ![K, N]⟩ ⟨2, ![M, N]⟩) none x w)
      (broadcastInDim ⟨2, ![M, N]⟩ ![0, 1] h2 (broadcastInDim ⟨2, ![1, N]⟩ ![1] h1 b)) = dense x w b := by
  funext i
  obtain ⟨p, q, rfl⟩ : ∃ (p : Fin M) (q : Fin N), i = ix2 p q := ⟨i 0, i 1, eq_ix2 i⟩
  rw [addf_apply, HostDot.dotGeneral_nn_apply, dense_apply]
  congr 1
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply _ h2 _ (ix2 p q) (ix2 (0 : Fin 1) q) fun a => ?_
    match a with
    | ⟨0, _⟩ => rfl
    | ⟨1, _⟩ =>
      show q.val = if N = 1 then 0 else q.val
      have := q.isLt
      split_ifs with hn
      · omega
      · rfl
  have e1 : broadcastInDim ⟨2, ![1, N]⟩ ![1] h1 b (ix2 (0 : Fin 1) q) = b (ix1 q) := by
    refine broadcastInDim_apply _ h1 _ (ix2 (0 : Fin 1) q) (ix1 q) fun a => ?_
    match a with
    | ⟨0, _⟩ =>
      show q.val = if N = 1 then 0 else q.val
      have := q.isLt
      split_ifs with hn
      · omega
      · rfl
  rw [e2, e1]

end Cert.Layers

end
-- ==== Proof.DownValue.lean ====
/-
  The first projection's array.

  The first kernel region walks the 100000 rows of its input in 50 blocks of 2000 rows; the weight matrix and
  the bias row are one block each, the same at every point.  At point `t` the body writes, to rows
  `2000 t … 2000 t + 1999` of its output, the dense layer of the input's rows `2000 t …`: entry `(p, q)` of the block
  is `Σₖ x[2000 t + p, k] · W[k, q] + r[0, q]`.  Row `i` of the output lies in block `i / 2000`, so the blocks cover the
  output and the region leaves in it the dense layer of the whole input, whatever the arrays it was entered with.
-/
import proofs.«174329_j76330158785174_1_alg».proof.Proof.Gen.KernelIdeal.Frame
import proofs.«174329_j76330158785174_1_alg».proof.Proof.Dense
import Idealize.ShloMosaic.Lib.Pipeline.Value

set_option maxRecDepth 16384

noncomputable section

open scoped BigOperators

namespace Cert.KernelIdeal.Down

open Idealize.ShloMosaic Idealize.ShloMosaic.TcCoe Idealize.SL.Sem Idealize.ShloMosaic.ValueIdx
open Idealize.ShloMosaic.Pipeline (Dat)
open Cert.KernelIdeal Cert.KernelIdeal.Gen Cert.Layers

variable (V : (c : Dev nD) → (b : Ref sig .tc) → Buf (Elt Ideal) ((c : Thread nD τ).loc b))

theorem hz : (![0, 0] : Fin 2 → Nat) = fun _ => 0 := funext fun a => by fin_cases a <;> rfl

/-- A single row read as a vector. -/
def rowVec {N : Nat} (r : FVec Ideal ⟨2, ![1, N]⟩ .f32) : FVec Ideal ⟨1, ![N]⟩ .f32 := fun j => r (ix2 (0 : Fin 1) (j 0))

/-- The body's stored value at row `p` and column `q` of the block. -/
theorem pay_apply (x0 : Vec Ideal S2000x768 .f32) (x1 : Vec Ideal S768x128 .f32) (x2 : Vec Ideal S1x128 .f32)
    (p : Fin 2000) (q : Fin 128) :
    k0_pay1 x0 x1 x2 (ix2 p q) = (∑ k : Fin 768, x0 (ix2 p k) * x1 (ix2 k q)) + x2 (ix2 (0 : Fin 1) q) := by
  unfold k0_pay1
  exact mxu_dense_apply x0 x1 x2 _ _ _ _ p q

/-- The stored value at an index of the block is the dense layer at an index of the array, when the block's row is
    the array's row, the weight and the bias row are the arrays', and the columns agree. -/
theorem pay_eq_dense (x0 : Vec Ideal S2000x768 .f32) (x1 : Vec Ideal S768x128 .f32) (x2 : Vec Ideal S1x128 .f32)
    (A : Vec Ideal S100000x768 .f32) (B : Vec Ideal S768x128 .f32) (r : Vec Ideal S1x128 .f32)
    (y : S2000x128.Idx) (i : S100000x128.Idx)
    (hx0 : ∀ k : Fin 768, x0 (ix2 (y 0) k) = A (ix2 (i 0) k))
    (hx1 : ∀ (k : Fin 768) (q : Fin 128), x1 (ix2 k q) = B (ix2 k q))
    (hx2 : ∀ q : Fin 128, x2 (ix2 (0 : Fin 1) q) = r (ix2 (0 : Fin 1) q))
    (hi : i 1 = y 1) :
    k0_pay1 x0 x1 x2 y = dense A B (rowVec r) i := by
  obtain ⟨p, q, rfl⟩ : ∃ (p : Fin 2000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  obtain rfl : q' = q := hi
  rw [pay_apply, dense_apply]
  congr 1
  · exact Finset.sum_congr rfl fun k _ => by rw [hx0 k, hx1 k q']
  · exact hx2 q'

/-- The printed index maps over the grid: the input and the output move one block of rows per point, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the dense layer of the arrays the region finds. -/
theorem flushed_eq (c : Dev nD) (t : Fin cfg0.N) :
    (dat0 V c).flushed 3 t = ((cfg0.win 3).blk t).view.read (Elt Ideal)
      (dense (V c main_arg0) (V c main_arg1) (rowVec (V c main_v13))) := by
  show (cfg0.win 3).cut (grid0.coords t) ((dat0 V c).after 3 t) = _
  rw [after0_3]
  unfold out0_3
  rw [View.canon_unit_zero hz]
  simp only [View.ld_unit_zero (S := S2000x768) hz, View.ld_unit_zero (S := S768x128) hz, View.ld_unit_zero (S := S1x128) hz]
  obtain ⟨e00, e01, e10, e11, e20, e21, e30, e31⟩ := idx_facts t
  funext j
  show k0_pay1 (iblk0 V c 0 t) (iblk0 V c 1 t) (iblk0 V c 2 t) j
    = dense (V c main_arg0) (V c main_arg1) (rowVec (V c main_v13)) (((cfg0.win 3).blk t).view.emb j)
  refine pay_eq_dense (iblk0 V c 0 t) (iblk0 V c 1 t) (iblk0 V c 2 t) (V c main_arg0) (V c main_arg1) (V c main_v13) j
    (((cfg0.win 3).blk t).view.emb j) (fun k => ?_) (fun k q => ?_) (fun q => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 2000 + 1 * (j 0).val = win0_3.index t (0 : Fin 2) * 2000 + 1 * (j 0).val; rw [e00, e30]
    | ⟨1, _⟩ => show win0_0.index t (1 : Fin 2) * 768 + 1 * k.val = k.val; rw [e01]; omega
  · show V c main_arg1 (((cfg0.win 1).blk t).view.emb (ix2 k q)) = V c main_arg1 (ix2 k q)
    refine congrArg (V c main_arg1) (funext fun a => Fin.ext ?_)
    match a with
    | ⟨0, _⟩ => show win0_1.index t (0 : Fin 2) * 768 + 1 * k.val = k.val; rw [e10]; omega
    | ⟨1, _⟩ => show win0_1.index t (1 : Fin 2) * 128 + 1 * q.val = q.val; rw [e11]; omega
  · show V c main_v13 (((cfg0.win 2).blk t).view.emb (ix2 (0 : Fin 1) q)) = V c main_v13 (ix2 (0 : Fin 1) q)
    refine congrArg (V c main_v13) (funext fun a => Fin.ext ?_)
    match a with
    | ⟨0, _⟩ => show win0_2.index t (0 : Fin 2) * 1 + 1 * 0 = 0; rw [e20]
    | ⟨1, _⟩ => show win0_2.index t (1 : Fin 2) * 128 + 1 * q.val = q.val; rw [e21]; omega
  · apply Fin.ext
    show win0_3.index t (1 : Fin 2) * 128 + 1 * (j 1).val = (j 1).val
    rw [e31]; omega

/-- An index of the output is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v14).slice (win0_3.rect t)).set ↔ _
  rw [View.set_slice_whole, Rect.mem_set_unit]
  exact Iff.rfl

/-- THE ARRAY after the region: the dense layer of the arrays it was entered with. -/
theorem final (c : Dev nD) :
    (dat0 V c).arrAt 3 cfg0.N = dense (V c main_arg0) (V c main_arg1) (rowVec (V c main_v13)) :=
  (dat0 V c).arrAt_eq_of_cover 3 _ (fun t _ => flushed_eq V c t) fun i => by
    have h0 : (i 0).val < 100000 := (i 0).isLt
    have h1 : (i 1).val < 128 := (i 1).isLt
    have hN : cfg0.N = 50 := N_0
    let t : Fin cfg0.N := ⟨(i 0).val / 2000, by rw [hN]; omega⟩
    obtain ⟨-, -, -, -, -, -, e30, e31⟩ := idx_facts t
    refine ⟨t, flush0_3 t, ?_⟩
    rw [mem_blk]
    intro a
    match a with
    | ⟨0, _⟩ =>
      show win0_3.index t (0 : Fin 2) * 2000 ≤ (i 0).val ∧ (i 0).val < win0_3.index t (0 : Fin 2) * 2000 + 2000
      rw [e30]; show (i 0).val / 2000 * 2000 ≤ (i 0).val ∧ (i 0).val < (i 0).val / 2000 * 2000 + 2000; omega
    | ⟨1, _⟩ =>
      show win0_3.index t (1 : Fin 2) * 128 ≤ (i 1).val ∧ (i 1).val < win0_3.index t (1 : Fin 2) * 128 + 128
      rw [e31]; omega

end Cert.KernelIdeal.Down

end
-- ==== Proof.UpValue.lean ====
/-
  The second kernel region's array: two dense layers, one after the other.

  The region walks the 100000 rows of the aggregated features in 50 blocks of 2000 rows; both weight matrices and
  both bias rows are one block each, the same at every point.  At point `t` the body forms
  `g = a Wg + rg` on its block of rows and writes `g Wu + ru` to rows `2000 t … 2000 t + 1999` of the output: entry
  `(p, q)` is `Σₜ (Σₛ a[2000 t + p, s] · Wg[s, t] + rg[0, t]) · Wu[t, q] + ru[0, q]`.  The blocks cover the output, so the
  region leaves in it the second dense layer of the first dense layer of the whole array it was entered with.
-/
import proofs.«174329_j76330158785174_1_alg».proof.Proof.Gen.KernelIdeal.Frame
import proofs.«174329_j76330158785174_1_alg».proof.Proof.Dense
import proofs.«174329_j76330158785174_1_alg».proof.Proof.DownValue
import Idealize.ShloMosaic.Lib.Pipeline.Value

set_option maxRecDepth 16384

noncomputable section

open scoped BigOperators

namespace Cert.KernelIdeal.Up

open Idealize.ShloMosaic Idealize.ShloMosaic.TcCoe Idealize.SL.Sem Idealize.ShloMosaic.ValueIdx
open Idealize.ShloMosaic.Pipeline (Dat)
open Cert.KernelIdeal Cert.KernelIdeal.Gen Cert.Layers
open Cert.KernelIdeal.Down (hz rowVec)

variable (V : (c : Dev nD) → (b : Ref sig .tc) → Buf (Elt Ideal) ((c : Thread nD τ).loc b))

/-- The body's stored value at row `p` and column `q` of the block. -/
theorem pay_apply (x0 : Vec Ideal S2000x128 .f32) (x1 : Vec Ideal S128x128 .f32) (x2 : Vec Ideal S1x128 .f32)
    (x3 : Vec Ideal S128x768 .f32) (x4 : Vec Ideal S1x768 .f32) (p : Fin 2000) (q : Fin 768) :
    k1_pay1 x0 x1 x2 x3 x4 (ix2 p q)
      = (∑ t : Fin 128, ((∑ s : Fin 128, x0 (ix2 p s) * x1 (ix2 s t)) + x2 (ix2 (0 : Fin 1) t)) * x3 (ix2 t q))
        + x4 (ix2 (0 : Fin 1) q) := by
  unfold k1_pay1
  refine (mxu_dense_apply _ x3 x4 _ _ _ _ p q).trans ?_
  refine congrArg (· + x4 (ix2 (0 : Fin 1) q)) (Finset.sum_congr rfl fun t _ => congrArg (· * x3 (ix2 t q)) ?_)
  refine (mxu_dense_apply _ x1 x2 _ _ _ _ p t).trans ?_
  rw [shapeCast_self]

/-- The stored value at an index of the block is the two layers at an index of the array, when the block's row is
    the array's row, the weights and the bias rows are the arrays', and the columns agree. -/
theorem pay_eq_dense (x0 : Vec Ideal S2000x128 .f32) (x1 : Vec Ideal S128x128 .f32) (x2 : Vec Ideal S1x128 .f32)
    (x3 : Vec Ideal S128x768 .f32) (x4 : Vec Ideal S1x768 .f32)
    (A : Vec Ideal S100000x128 .f32) (Wg : Vec Ideal S128x128 .f32) (rg : Vec Ideal S1x128 .f32)
    (Wu : Vec Ideal S128x768 .f32) (ru : Vec Ideal S1x768 .f32)
    (y : S2000x768.Idx) (i : S100000x768.Idx)
    (hx0 : ∀ s : Fin 128, x0 (ix2 (y 0) s) = A (ix2 (i 0) s))
    (hx1 : ∀ (s t : Fin 128), x1 (ix2 s t) = Wg (ix2 s t))
    (hx2 : ∀ t : Fin 128, x2 (ix2 (0 : Fin 1) t) = rg (ix2 (0 : Fin 1) t))
    (hx3 : ∀ (t : Fin 128) (q : Fin 768), x3 (ix2 t q) = Wu (ix2 t q))
    (hx4 : ∀ q : Fin 768, x4 (ix2 (0 : Fin 1) q) = ru (ix2 (0 : Fin 1) q))
    (hi : i 1 = y 1) :
    k1_pay1 x0 x1 x2 x3 x4 y = dense (dense A Wg (rowVec rg)) Wu (rowVec ru) i := by
  obtain ⟨p, q, rfl⟩ : ∃ (p : Fin 2000) (q : Fin 768), y = ix2 p q := ⟨y 0, y 1, eq_ix2 y⟩
  obtain ⟨p', q', rfl⟩ : ∃ (p' : Fin 100000) (q' : Fin 768), i = ix2 p' q' := ⟨i 0, i 1, eq_ix2 i⟩
  obtain rfl : q' = q := hi
  rw [pay_apply, dense_apply]
  congr 1
  · refine Finset.sum_congr rfl fun t _ => ?_
    rw [dense_apply, hx3 t q', hx2 t]
    refine congrArg (fun z => (z + rg (ix2 (0 : Fin 1) t)) * Wu (ix2 t q')) (Finset.sum_congr rfl fun s _ => ?_)
    rw [hx0 s, hx1 s t]
  · exact hx4 q'

/-- The printed index maps over the grid: the input and the output move one block of rows per point, every other
    block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the two layers of the arrays the region finds. -/
theorem flushed_eq (c : Dev nD) (t : Fin cfg1.N) :
    (dat1 V c).flushed 5 t = ((cfg1.win 5).blk t).view.read (Elt Ideal)
      (dense (dense (V c main_v30) (V c main_arg3) (rowVec (V c main_v31))) (V c main_arg5) (rowVec (V c main_v32))) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz,
    View.ld_unit_zero (S := S128x768) hz, View.ld_unit_zero (S := S1x768) hz]
  obtain ⟨e00, e01, e10, e11, e20, e21, e30, e31, e40, e41, e50, e51⟩ := idx_facts t
  funext j
  show k1_pay1 (iblk1 V c 0 t) (iblk1 V c 1 t) (iblk1 V c 2 t) (iblk1 V c 3 t) (iblk1 V c 4 t) j
    = dense (dense (V c main_v30) (V c main_arg3) (rowVec (V c main_v31))) (V c main_arg5) (rowVec (V c main_v32))
        (((cfg1.win 5).blk t).view.emb j)
  refine pay_eq_dense (iblk1 V c 0 t) (iblk1 V c 1 t) (iblk1 V c 2 t) (iblk1 V c 3 t) (iblk1 V c 4 t)
    (V c main_v30) (V c main_arg3) (V c main_v31) (V c main_arg5) (V c main_v32) j
    (((cfg1.win 5).blk t).view.emb j) (fun s => ?_) (fun s u => ?_) (fun u => ?_) (fun u q => ?_) (fun q => ?_) ?_
  · show V c main_v30 (((cfg1.win 0).blk t).view.emb (ix2 (j 0) s)) = V c main_v30 (ix2 ((((cfg1.win 5).blk t).view.emb j) 0) s)
    refine congrArg (V c main_v30) (funext fun a => Fin.ext ?_)
    match a with
    | ⟨0, _⟩ => show win1_0.index t (0 : Fin 2) * 2000 + 1 * (j 0).val = win1_5.index t (0 : Fin 2) * 2000 + 1 * (j 0).val; rw [e00, e50]
    | ⟨1, _⟩ => show win1_0.index t (1 : Fin 2) * 128 + 1 * s.val = s.val; rw [e01]; omega
  · show V c main_arg3 (((cfg1.win 1).blk t).view.emb (ix2 s u)) = V c main_arg3 (ix2 s u)
    refine congrArg (V c main_arg3) (funext fun a => Fin.ext ?_)
    match a with
    | ⟨0, _⟩ => show win1_1.index t (0 : Fin 2) * 128 + 1 * s.val = s.val; rw [e10]; omega
    | ⟨1, _⟩ => show win1_1.index t (1 : Fin 2) * 128 + 1 * u.val = u.val; rw [e11]; omega
  · show V c main_v31 (((cfg1.win 2).blk t).view.emb (ix2 (0 : Fin 1) u)) = V c main_v31 (ix2 (0 : Fin 1) u)
    refine congrArg (V c main_v31) (funext fun a => Fin.ext ?_)
    match a with
    | ⟨0, _⟩ => show win1_2.index t (0 : Fin 2) * 1 + 1 * 0 = 0; rw [e20]
    | ⟨1, _⟩ => show win1_2.index t (1 : Fin 2) * 128 + 1 * u.val = u.val; rw [e21]; omega
  · show V c main_arg5 (((cfg1.win 3).blk t).view.emb (ix2 u q)) = V c main_arg5 (ix2 u q)
    refine congrArg (V c main_arg5) (funext fun a => Fin.ext ?_)
    match a with
    | ⟨0, _⟩ => show win1_3.index t (0 : Fin 2) * 128 + 1 * u.val = u.val; rw [e30]; omega
    | ⟨1, _⟩ => show win1_3.index t (1 : Fin 2) * 768 + 1 * q.val = q.val; rw [e31]; omega
  · show V c main_v32 (((cfg1.win 4).blk t).view.emb (ix2 (0 : Fin 1) q)) = V c main_v32 (ix2 (0 : Fin 1) q)
    refine congrArg (V c main_v32) (funext fun a => Fin.ext ?_)
    match a with
    | ⟨0, _⟩ => show win1_4.index t (0 : Fin 2) * 1 + 1 * 0 = 0; rw [e40]
    | ⟨1, _⟩ => show win1_4.index t (1 : Fin 2) * 768 + 1 * q.val = q.val; rw [e41]; omega
  · apply Fin.ext
    show win1_5.index t (1 : Fin 2) * 768 + 1 * (j 1).val = (j 1).val
    rw [e51]; omega

/-- An index of the output is in point `t`'s block iff each coordinate is in the block's range on its axis. -/
theorem mem_blk (t : Fin cfg1.N) (i : S100000x768.Idx) :
    i ∈ ((cfg1.win 5).blk t).view.set ↔ ∀ a : Fin 2, win1_5.index t a * S2000x768.size a ≤ (i a).val
      ∧ (i a).val < win1_5.index t a * S2000x768.size a + S2000x768.size a := by
  show i ∈ ((View.whole main_v33).slice (win1_5.rect t)).set ↔ _
  rw [View.set_slice_whole, Rect.mem_set_unit]
  exact Iff.rfl

/-- THE ARRAY after the region: the two layers of the arrays it was entered with. -/
theorem final (c : Dev nD) :
    (dat1 V c).arrAt 5 cfg1.N
      = dense (dense (V c main_v30) (V c main_arg3) (rowVec (V c main_v31))) (V c main_arg5) (rowVec (V c main_v32)) :=
  (dat1 V c).arrAt_eq_of_cover 5 _ (fun t _ => flushed_eq V c t) fun i => by
    have h0 : (i 0).val < 100000 := (i 0).isLt
    have h1 : (i 1).val < 768 := (i 1).isLt
    have hN : cfg1.N = 50 := N_1
    let t : Fin cfg1.N := ⟨(i 0).val / 2000, by rw [hN]; omega⟩
    obtain ⟨-, -, -, -, -, -, -, -, -, -, e50, e51⟩ := idx_facts t
    refine ⟨t, flush1_5 t, ?_⟩
    rw [mem_blk]
    intro a
    match a with
    | ⟨0, _⟩ =>
      show win1_5.index t (0 : Fin 2) * 2000 ≤ (i 0).val ∧ (i 0).val < win1_5.index t (0 : Fin 2) * 2000 + 2000
      rw [e50]; show (i 0).val / 2000 * 2000 ≤ (i 0).val ∧ (i 0).val < (i 0).val / 2000 * 2000 + 2000; omega
    | ⟨1, _⟩ =>
      show win1_5.index t (1 : Fin 2) * 768 ≤ (i 1).val ∧ (i 1).val < win1_5.index t (1 : Fin 2) * 768 + 768
      rw [e51]; omega

end Cert.KernelIdeal.Up

end
-- ==== Proof.KernelValue.lean ====
/-
  What the kernel program leaves in its result array, as one function of its arguments.

  Between the two kernel regions the host normalises and aggregates: with `ν(idx)` the vector
  `1 / sqrt(max(deg, 1))` of the degrees that the edge list `idx` gives the 100000 nodes, the rows of `h` are scaled by
  `ν(src)`, gathered along the edges' sources, added into the edges' destinations and scaled by `ν(dst)`.  The first
  region's output is the dense layer `features Wd + bd`; the host's chain takes it to the aggregate; the second region
  applies the two dense layers `(· Wg + bg) Wu + bu`.  The contents at each boundary of @main are read back through the
  fold: a region's output array at what its blocks leave, every other buffer as the host operations before it left it.
-/
import proofs.«174329_j76330158785174_1_alg».proof.Proof.KernelRun
import proofs.«174329_j76330158785174_1_alg».proof.Proof.DownValue
import proofs.«174329_j76330158785174_1_alg».proof.Proof.UpValue
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx
open Idealize.ShloMosaic.StableHlo
open Cert.KernelIdeal Cert.KernelIdeal.Gen Cert.Layers
open Cert.KernelIdeal.Down (rowVec)

/-- `ν(idx)`: one over the square root of each node's degree in the edge list `idx`, the degree raised to at least one. -/
def degNorm (idx : IVec S1600000 32) : FVec Ideal S100000 .f32 :=
  Host.rsqrt (F := Ideal) (maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S100000 ![] bcast_S_S100000 (constant (F := Ideal) S_ .f32 0x3F800000#32)))

/-- The normalised aggregation of `h` along the edges `src → dst`. -/
def aggregate (h : FVec Ideal S100000x128 .f32) (src dst : IVec S1600000 32) : FVec Ideal S100000x128 .f32 :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128
        (mulf h (broadcastInDim S100000x128 ![0, 1] bcast_S100000x1_S100000x128_0_1
          (broadcastInDim S100000x1 ![0] bcast_S100000_S100000x1_0 (degNorm src))))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0 (degNorm dst)))

/-- A vector laid out as one row, read back as a vector, is the vector. -/
theorem rowVec_reshape {N : Nat} (x : FVec Ideal ⟨1, ![N]⟩ .f32) (h : (⟨1, ![N]⟩ : Shape).ShapeCasts ⟨2, ![1, N]⟩) :
    rowVec (shapeCast ⟨2, ![1, N]⟩ x h) = x := by
  funext j
  obtain ⟨q, rfl⟩ : ∃ q : Fin N, j = ix1 q := ⟨j 0, eq_ix1 j⟩
  exact MatrixReads.rowOfVec_apply N x h q

variable (m : (ℓ : Loc nD τ sig) → Buf (Elt Ideal) ℓ) (ρ : Dev nD → PrngReg)

/-! ## The contents at the first region's entry -/

theorem W1_arg0 (c : Dev nD) : W1 m ρ c (Proc.devRef .tc main_arg0) = m ((c : Thread nD τ).loc main_arg0) := by
  dsimp only [W1, hostOps0]; after_results_simp <;> rfl
theorem W1_arg1 (c : Dev nD) : W1 m ρ c (Proc.devRef .tc main_arg1) = m ((c : Thread nD τ).loc main_arg1) := by
  dsimp only [W1, hostOps0]; after_results_simp <;> rfl
theorem W1_arg7 (c : Dev nD) : W1 m ρ c (Proc.devRef .tc main_arg7) = m ((c : Thread nD τ).loc main_arg7) := by
  dsimp only [W1, hostOps0]; after_results_simp <;> rfl
theorem W1_arg8 (c : Dev nD) : W1 m ρ c (Proc.devRef .tc main_arg8) = m ((c : Thread nD τ).loc main_arg8) := by
  dsimp only [W1, hostOps0]; after_results_simp <;> rfl
theorem W1_arg3 (c : Dev nD) : W1 m ρ c (Proc.devRef .tc main_arg3) = m ((c : Thread nD τ).loc main_arg3) := by
  dsimp only [W1, hostOps0]; after_results_simp <;> rfl
theorem W1_arg4 (c : Dev nD) : W1 m ρ c (Proc.devRef .tc main_arg4) = m ((c : Thread nD τ).loc main_arg4) := by
  dsimp only [W1, hostOps0]; after_results_simp <;> rfl
theorem W1_arg5 (c : Dev nD) : W1 m ρ c (Proc.devRef .tc main_arg5) = m ((c : Thread nD τ).loc main_arg5) := by
  dsimp only [W1, hostOps0]; after_results_simp <;> rfl
theorem W1_arg6 (c : Dev nD) : W1 m ρ c (Proc.devRef .tc main_arg6) = m ((c : Thread nD τ).loc main_arg6) := by
  dsimp only [W1, hostOps0]; after_results_simp <;> rfl

/-- The bias of the first layer, laid out as one row. -/
theorem W1_v13 (c : Dev nD) : W1 m ρ c (Proc.devRef .tc main_v13)
    = shapeCast S1x128 (m ((c : Thread nD τ).loc main_arg2)) shapeCasts_S128_S1x128 := by
  dsimp only [W1, hostOps0]; after_results_simp <;> rfl

/-- The sources' degree norms. -/
theorem W1_v9 (c : Dev nD) : W1 m ρ c (Proc.devRef .tc main_v9) = degNorm (m ((c : Thread nD τ).loc main_arg7)) := by
  dsimp only [W1, hostOps0]; after_results_simp <;> rfl

/-- The destinations' degree norms. -/
theorem W1_v12 (c : Dev nD) : W1 m ρ c (Proc.devRef .tc main_v12) = degNorm (m ((c : Thread nD τ).loc main_arg8)) := by
  dsimp only [W1, hostOps0]; after_results_simp <;> rfl

/-! ## The first region's exit: its output at the dense layer, the rest as entered -/

theorem W2_v14 (c : Dev nD) : W2 m ρ c (Proc.devRef .tc main_v14)
    = dense (m ((c : Thread nD τ).loc main_arg0)) (m ((c : Thread nD τ).loc main_arg1)) (m ((c : Thread nD τ).loc main_arg2)) := by
  have h := (W2_arr m ρ c 3).trans (Down.final (V1 m ρ) c)
  rw [show V1 m ρ c main_arg0 = _ from W1_arg0 m ρ c, show V1 m ρ c main_arg1 = _ from W1_arg1 m ρ c,
    show V1 m ρ c main_v13 = _ from W1_v13 m ρ c, rowVec_reshape] at h
  exact h

/-! ## The second region's entry -/

/-- The aggregated features the second region is entered with. -/
theorem W3_v30 (c : Dev nD) : W3 m ρ c (Proc.devRef .tc main_v30)
    = aggregate (dense (m ((c : Thread nD τ).loc main_arg0)) (m ((c : Thread nD τ).loc main_arg1)) (m ((c : Thread nD τ).loc main_arg2)))
        (m ((c : Thread nD τ).loc main_arg7)) (m ((c : Thread nD τ).loc main_arg8)) := by
  dsimp only [W3, hostOps1]; after_results_simp
  rw [W2_v14, W2_of_ne m ρ c main_v9 (by decide), W2_of_ne m ρ c main_v12 (by decide), W2_of_ne m ρ c main_arg7 (by decide),
    W2_of_ne m ρ c main_arg8 (by decide), W1_v9, W1_v12, W1_arg7, W1_arg8]
  rfl

theorem W3_arg3 (c : Dev nD) : W3 m ρ c (Proc.devRef .tc main_arg3) = m ((c : Thread nD τ).loc main_arg3) := by
  dsimp only [W3, hostOps1]; after_results_simp
  rw [W2_of_ne m ρ c main_arg3 (by decide), W1_arg3]
theorem W3_arg5 (c : Dev nD) : W3 m ρ c (Proc.devRef .tc main_arg5) = m ((c : Thread nD τ).loc main_arg5) := by
  dsimp only [W3, hostOps1]; after_results_simp
  rw [W2_of_ne m ρ c main_arg5 (by decide), W1_arg5]
theorem W3_v31 (c : Dev nD) : W3 m ρ c (Proc.devRef .tc main_v31)
    = shapeCast S1x128 (m ((c : Thread nD τ).loc main_arg4)) shapeCasts_S128_S1x128 := by
  dsimp only [W3, hostOps1]; after_results_simp
  rw [W2_of_ne m ρ c main_arg4 (by decide), W1_arg4]
  rfl
theorem W3_v32 (c : Dev nD) : W3 m ρ c (Proc.devRef .tc main_v32)
    = shapeCast S1x768 (m ((c : Thread nD τ).loc main_arg6)) shapeCasts_S768_S1x768 := by
  dsimp only [W3, hostOps1]; after_results_simp
  rw [W2_of_ne m ρ c main_arg6 (by decide), W1_arg6]
  rfl

/-! ## The result -/

/-- The whole computation: project down, aggregate along the edges, apply the two layers. -/
def outOf (x : FVec Ideal S100000x768 .f32) (wd : FVec Ideal S768x128 .f32) (bd : FVec Ideal S128 .f32)
    (wg : FVec Ideal S128x128 .f32) (bg : FVec Ideal S128 .f32) (wu : FVec Ideal S128x768 .f32) (bu : FVec Ideal S768 .f32)
    (src dst : IVec S1600000 32) : FVec Ideal S100000x768 .f32 :=
  dense (dense (aggregate (dense x wd bd) src dst) wg bg) wu bu

/-- The kernel program's result as a function of its arguments. -/
abbrev out (c : Dev nD) : Buf (Elt Ideal) ((c : Thread nD τ).loc main_v33) :=
  outOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem W4_v33 (c : Dev nD) : W4 m ρ c (Proc.devRef .tc main_v33) = out m c := by
  have h := (W4_arr m ρ c 5).trans (Up.final (V3 m ρ) c)
  rw [show V3 m ρ c main_v30 = _ from W3_v30 m ρ c, show V3 m ρ c main_arg3 = _ from W3_arg3 m ρ c,
    show V3 m ρ c main_v31 = _ from W3_v31 m ρ c, show V3 m ρ c main_arg5 = _ from W3_arg5 m ρ c,
    show V3 m ρ c main_v32 = _ from W3_v32 m ρ c, rowVec_reshape, rowVec_reshape] at h
  exact h

/-- The run, read: the result array at `out`, the arguments unchanged. -/
theorem run : θ_run defs (onTc (τ := τ) (main (F := Ideal))) ⟨m, fun _ => 0, ρ⟩ (fun r => ∀ c : Dev nD,
      r.2.mem ((c.tc : Thread nD τ).loc main_v33) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W4_v33 m ρ c), (h c).2⟩) (Cert.KernelIdeal.GenRun.run m ρ)

end Cert.KernelIdeal.Whole

end
-- ==== Proof.RefValue.lean ====
/-
  The reference's three affine steps are dense layers.

  The reference computes `features @ Wd + bd`, `agg @ Wg + bg` and `g @ Wu + bu` each as a `dot_general` plus the bias
  broadcast to one row and then down the 100000 rows: entry `(p, q)` is `Σₖ x[p, k] · W[k, q] + b[q]`, the dense layer.
-/
import proofs.«174329_j76330158785174_1_alg».proof.Defs
import proofs.«174329_j76330158785174_1_alg».proof.Proof.Gen.ReferenceIdeal.Run
import proofs.«174329_j76330158785174_1_alg».proof.Proof.Dense

noncomputable section

namespace Cert.ReferenceIdeal.Layers

open Idealize.ShloMosaic Cert.ReferenceIdeal Cert.ReferenceIdeal.Gen Cert.Layers

/-- `features @ Wd + bd`. -/
theorem down (x : FVec Ideal S100000x768 .f32) (w : FVec Ideal S768x128 .f32) (b : FVec Ideal S128 .f32) :
    addf (Host.dotGeneral (F := Ideal) dot_S100000x768_S768x128_S100000x128_1_0_0_1_n_n none x w)
      (broadcastInDim S100000x128 ![0, 1] bcast_S1x128_S100000x128_0_1 (broadcastInDim S1x128 ![1] bcast_S128_S1x128_1 b))
      = dense x w b :=
  host_dense_eq _ x w b _ _

/-- `agg @ Wg + bg`. -/
theorem mid (x : FVec Ideal S100000x128 .f32) (w : FVec Ideal S128x128 .f32) (b : FVec Ideal S128 .f32) :
    addf (Host.dotGeneral (F := Ideal) dot_S100000x128_S128x128_S100000x128_1_0_0_1_n_n none x w)
      (broadcastInDim S100000x128 ![0, 1] bcast_S1x128_S100000x128_0_1 (broadcastInDim S1x128 ![1] bcast_S128_S1x128_1 b))
      = dense x w b :=
  host_dense_eq _ x w b _ _

/-- `g @ Wu + bu`. -/
theorem up (x : FVec Ideal S100000x128 .f32) (w : FVec Ideal S128x768 .f32) (b : FVec Ideal S768 .f32) :
    addf (Host.dotGeneral (F := Ideal) dot_S100000x128_S128x768_S100000x768_1_0_0_1_n_n none x w)
      (broadcastInDim S100000x768 ![0, 1] bcast_S1x768_S100000x768_0_1 (broadcastInDim S1x768 ![1] bcast_S768_S1x768_1 b))
      = dense x w b :=
  host_dense_eq _ x w b _ _

end Cert.ReferenceIdeal.Layers

end
-- ==== Proof.lean ====
/-
  A graph convolution between two projections: the kernel program against its reference, on the extended reals.

  Both programs compute `out = ((A (features Wd + bd)) Wg + bg) Wu + bu`, where `A` scales the rows by the sources'
  degree norms `1 / sqrt(max(deg, 1))`, gathers them along the edges' sources, adds them into the edges' destinations and
  scales by the destinations' degree norms.  The kernel program runs the first projection and the last two layers as two
  kernel regions over 50 blocks of 2000 rows, with operands narrowed to half width in front of the matrix unit; the
  reference runs everything on the host.  On the extended reals narrowing is the identity, a matrix-unit product into zeros
  and the host's `dot_general` are the same sum `Σₖ x[p, k] · W[k, q]`, and the aggregation `A` is the same chain of host
  operations in both programs, applied to the same array: the two results are one function of the arguments, entry by
  entry, with no appeal to finiteness.  The ideal pass rewrote nothing, so `preserves` has nothing to state.
-/
import proofs.«174329_j76330158785174_1_alg».proof.Defs
import proofs.«174329_j76330158785174_1_alg».proof.Proof.Gen.Kernel
import proofs.«174329_j76330158785174_1_alg».proof.Proof.Gen.Kernel.Skeleton
import proofs.«174329_j76330158785174_1_alg».proof.Proof.Gen.Kernel.Launch
import proofs.«174329_j76330158785174_1_alg».proof.Proof.Gen.Kernel.Points
import proofs.«174329_j76330158785174_1_alg».proof.Proof.Gen.Kernel.Frame
import proofs.«174329_j76330158785174_1_alg».proof.Proof.Gen.KernelIdeal
import proofs.«174329_j76330158785174_1_alg».proof.Proof.Gen.KernelIdeal.Skeleton
import proofs.«174329_j76330158785174_1_alg».proof.Proof.Gen.KernelIdeal.Launch
import proofs.«174329_j76330158785174_1_alg».proof.Proof.Gen.KernelIdeal.Points
import proofs.«174329_j76330158785174_1_alg».proof.Proof.Gen.KernelIdeal.Frame
import proofs.«174329_j76330158785174_1_alg».proof.Proof.Gen.ReferenceIdeal
import proofs.«174329_j76330158785174_1_alg».proof.Proof.Gen.ReferenceIdeal.Run
import proofs.«174329_j76330158785174_1_alg».proof.Proof.Gen.Pre_finite_inputs
import proofs.«174329_j76330158785174_1_alg».proof.Proof.KernelValue
import proofs.«174329_j76330158785174_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel program's result array ends at `outOf` of its arguments (the two regions' dense layers around the host's
    aggregation); the reference's ends at its operations' composed term, whose three affine steps are the same dense
    layers and whose aggregation is the same chain of operations: one function of arguments that agree. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [e0, e1, e2, e3, e4, e5, e6, e7, e8, Cert.ReferenceIdeal.Layers.down, Cert.ReferenceIdeal.Layers.mid,
    Cert.ReferenceIdeal.Layers.up]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
